-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v12) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x4096 : Shape := ⟨2, ![4096, 4096]⟩
abbrev S_ : Shape := ⟨0, ![]⟩

class Facts : Prop where
  bcast_S_S4096x4096 : S_.BroadcastsInDim S4096x4096 (![] : Fin 0 → Fin S4096x4096.rank)
  reducesTo_S4096x4096_S_d0_1 : S4096x4096.ReducesTo [0, 1] S_
  h_S_ : 0 < S_.numel

variable [Facts]

def fn_part1 {F : FTy → Type} [FloatOps F] (main_v12 : IVec S_ 1) (main_v15 : IVec S_ 1) : IVec S_ 1 :=
  let main_v16 : IVec S_ 1 := andi main_v12 main_v15
  main_v16

def fn {F : FTy → Type} [FloatOps F] (main_arg0 : FVec F S4096x4096 .f32) (main_arg1 : IVec S4096x4096 32) (main_arg2 : FVec F S4096x4096 .f32) (main_arg3 : IVec S4096x4096 32) : IVec S_ 1 :=
  let main_v0 : FVec F S4096x4096 .f32 := Host.absf main_arg0
  let main_cst : FVec F S_ .f32 := constant S_ .f32 0x7F800000#32
  let main_v1 : FVec F S4096x4096 .f32 := broadcastInDim S4096x4096 ![] bcast_S_S4096x4096 main_cst
  let main_v2 : IVec S4096x4096 1 := cmpf .olt main_v0 main_v1
  let main_c : IVec S_ 1 := constantI S_ 1 1#1
  let main_v3 : IVec S_ 1 := (fun x v => Host.reduce IntOp.andi x v reducesTo_S4096x4096_S_d0_1 h_S_) main_v2 main_c
  let main_v4 : FVec F S4096x4096 .f32 := Host.absf main_arg2
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_c_2 : IVec S_ 32 := constantI S_ 32 1025#32
  let main_v9 : IVec S4096x4096 32 := broadcastInDim S4096x4096 ![] bcast_S_S4096x4096 main_c_2
  let main_v10 : IVec S4096x4096 1 := cmpi .slt main_arg1 main_v9
  let main_c_3 : IVec S_ 1 := constantI S_ 1 1#1
  let main_v11 : IVec S_ 1 := (fun x v => Host.reduce IntOp.andi x v reducesTo_S4096x4096_S_d0_1 h_S_) main_v10 main_c_3
  let main_v12 : IVec S_ 1 := andi main_v8 main_v11
  let main_c_4 : IVec S_ 32 := constantI S_ 32 1025#32
  let main_v13 : IVec S4096x4096 32 := broadcastInDim S4096x4096 ![] bcast_S_S4096x4096 main_c_4
  let main_v14 : IVec S4096x4096 1 := cmpi .slt main_arg3 main_v13
  let main_c_5 : IVec S_ 1 := constantI S_ 1 1#1
  let main_v15 : IVec S_ 1 := (fun x v => Host.reduce IntOp.andi x v reducesTo_S4096x4096_S_d0_1 h_S_) main_v14 main_c_5
  fn_part1 (F := F) main_v12 main_v15
-- ==== Kernel.lean ====
abbrev S4096x4096 : Shape := ⟨2, ![4096, 4096]⟩
abbrev S1152 : Shape := ⟨1, ![1152]⟩
abbrev S1152x1 : Shape := ⟨2, ![1152, 1]⟩
abbrev S2x1152x1 : Shape := ⟨3, ![2, 1152, 1]⟩
abbrev S8x128 : Shape := ⟨2, ![8, 128]⟩
abbrev S1x1152x1 : Shape := ⟨3, ![1, 1152, 1]⟩
abbrev S1152x1x1 : Shape := ⟨3, ![1152, 1, 1]⟩
abbrev S1x8x128 : Shape := ⟨3, ![1, 8, 128]⟩
abbrev S1152x8x128 : Shape := ⟨3, ![1152, 8, 128]⟩
abbrev S1152x8 : Shape := ⟨2, ![1152, 8]⟩
abbrev S_ : Shape := ⟨0, ![]⟩

abbrev nBuf : Space → Nat
  | .hbm => 12
  | .vmem => 11
  | .smem => 0
  | _ => 0

abbrev bufTy : (tb : Table) → Fin (tcTables nBuf tb) → BufTy
  | .hbm, ⟨0, _⟩ => ⟨S4096x4096, .f32⟩
  | .hbm, ⟨1, _⟩ => ⟨S4096x4096, .i32⟩
  | .hbm, ⟨2, _⟩ => ⟨S4096x4096, .f32⟩
  | .hbm, ⟨3, _⟩ => ⟨S4096x4096, .i32⟩
  | .hbm, ⟨4, _⟩ => ⟨S1152, .i32⟩
  | .hbm, ⟨5, _⟩ => ⟨S1152x1, .i32⟩
  | .hbm, ⟨6, _⟩ => ⟨S2x1152x1, .f32⟩
  | .hbm, ⟨7, _⟩ => ⟨S_, .f32⟩
  | .hbm, ⟨8, _⟩ => ⟨S1152x1, .f32⟩
  | .hbm, ⟨9, _⟩ => ⟨S1152x1, .f32⟩
  | .hbm, ⟨10, _⟩ => ⟨S_, .f32⟩
  | .hbm, ⟨11, _⟩ => ⟨S_, .f32⟩
  | .local _ .vmem, ⟨0, _⟩ => ⟨S8x128, .f32⟩
  | .local _ .vmem, ⟨1, _⟩ => ⟨S8x128, .f32⟩
  | .local _ .vmem, ⟨2, _⟩ => ⟨S8x128, .i32⟩
  | .local _ .vmem, ⟨3, _⟩ => ⟨S8x128, .i32⟩
  | .local _ .vmem, ⟨4, _⟩ => ⟨S8x128, .f32⟩
  | .local _ .vmem, ⟨5, _⟩ => ⟨S8x128, .f32⟩
  | .local _ .vmem, ⟨6, _⟩ => ⟨S8x128, .i32⟩
  | .local _ .vmem, ⟨7, _⟩ => ⟨S8x128, .i32⟩
  | .local _ .vmem, ⟨8, _⟩ => ⟨S1152x1, .i32⟩
  | .local _ .vmem, ⟨9, _⟩ => ⟨S1x1152x1, .f32⟩
  | .local _ .vmem, ⟨10, _⟩ => ⟨S1x1152x1, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨3, ![2, 256, 32], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c256_i32 : BitVec 32 := 256#32
  let v0 : BitVec 32 := Scalar.muli arg0 c256_i32
  let v1 : BitVec 32 := Scalar.addi v0 arg1
  let c0_i32 : BitVec 32 := 0#32
  ![v1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c256_i32 : BitVec 32 := 256#32
  let v0 : BitVec 32 := Scalar.muli arg0 c256_i32
  let v1 : BitVec 32 := Scalar.addi v0 arg1
  let c0_i32 : BitVec 32 := 0#32
  ![v1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c256_i32 : BitVec 32 := 256#32
  let v0 : BitVec 32 := Scalar.muli arg0 c256_i32
  let v1 : BitVec 32 := Scalar.addi v0 arg1
  let c0_i32 : BitVec 32 := 0#32
  ![v1.toNat, arg2.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c256_i32 : BitVec 32 := 256#32
  let v0 : BitVec 32 := Scalar.muli arg0 c256_i32
  let v1 : BitVec 32 := Scalar.addi v0 arg1
  let c0_i32 : BitVec 32 := 0#32
  ![v1.toNat, arg2.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S8x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S8x128 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S8x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S8x128 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 1 → Memref sig .tc .vmem S1152x1 .i32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false]

abbrev stage0_5 : Fin 2 → Memref sig .tc .vmem S1x1152x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false, false]

class Facts₀ : Prop where
  shapeCasts_S1152_S1152x1 : S1152.ShapeCasts S1152x1
  inb_S1x1152x1_S1x1152x1_0_0_0 : ∀ a, (![0, 0, 0] : Fin 3 → Nat) a + S1x1152x1.size a ≤ S1x1152x1.size a
  h_S1x1152x1 : 0 < S1x1152x1.numel
  inb_S1152x1_S1152x1_0_0 : ∀ a, (![0, 0] : Fin 2 → Nat) a + S1152x1.size a ≤ S1152x1.size a
  h_S1152x1 : 0 < S1152x1.numel
  shapeCasts_S1152x1_S1152x1 : S1152x1.ShapeCasts S1152x1
  shapeCasts_S1152x1_S1152x1x1 : S1152x1.ShapeCasts S1152x1x1
  inb_S8x128_S8x128_0_0 : ∀ a, (![0, 0] : Fin 2 → Nat) a + S8x128.size a ≤ S8x128.size a
  h_S8x128 : 0 < S8x128.numel
  shapeCasts_S8x128_S1x8x128 : S8x128.ShapeCasts S1x8x128
  broadcasts_S1152x1x1_S1152x8x128 : S1152x1x1.Broadcasts S1152x8x128
  broadcasts_S1x8x128_S1152x8x128 : S1x8x128.Broadcasts S1152x8x128
  natLt_1_32 : 1 < 32
  reduces_S1152x8x128_S1152x8 : S1152x8x128.Reduces [2] S1152x8
  reduces_S1152x8_S1152 : S1152x8.Reduces [1] S1152
  shapeCasts_S1x1152x1_S1x1152x1 : S1x1152x1.ShapeCasts S1x1152x1
  shapeCasts_S1152x1_S1x1152x1 : S1152x1.ShapeCasts S1x1152x1
  reducesTo_S2x1152x1_S1152x1_d0 : S2x1152x1.ReducesTo [0] S1152x1
  h_S_ : 0 < S_.numel
  reducesTo_S1152x1_S_d0_1 : S1152x1.ReducesTo [0, 1] S_
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x128.size a ≤ S4096x4096.size a
  hwx0_0 : ∀ i : grid0.Coords, EltTy.bits .f32 = 32 ∨ (Rect.block (s := S4096x4096) S8x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8x128.size a ≤ S4096x4096.size a
  hwx0_1 : ∀ i : grid0.Coords, EltTy.bits .i32 = 32 ∨ (Rect.block (s := S4096x4096) S8x128.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8x128.size a ≤ S4096x4096.size a
  hwx0_2 : ∀ i : grid0.Coords, EltTy.bits .f32 = 32 ∨ (Rect.block (s := S4096x4096) S8x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S8x128.size a ≤ S4096x4096.size a
  hwx0_3 : ∀ i : grid0.Coords, EltTy.bits .i32 = 32 ∨ (Rect.block (s := S4096x4096) S8x128.size (cc0_transform_3 i) (hinb0_3 i)).WholeWords (EltTy.packing .i32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1152x1.size a ≤ S1152x1.size a
  hwx0_4 : ∀ i : grid0.Coords, EltTy.bits .i32 = 32 ∨ (Rect.block (s := S1152x1) S1152x1.size (cc0_transform_4 i) (hinb0_4 i)).WholeWords (EltTy.packing .i32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x1152x1.size a ≤ S2x1152x1.size a
  hwx0_5 : ∀ i : grid0.Coords, EltTy.bits .f32 = 32 ∨ (Rect.block (s := S2x1152x1) S1x1152x1.size (cc0_transform_5 i) (hinb0_5 i)).WholeWords (EltTy.packing .f32)

variable [Facts₀]

abbrev win0_0 : Pipeline.Window sig grid0 :=
  Pipeline.Window.ofSpec (Memref.whole main_arg0) S8x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S8x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S8x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S8x128.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v1) S1152x1.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v2) S1x1152x1.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S4096x4096 : Shape := ⟨2, ![4096, 4096]⟩
abbrev S16777216 : Shape := ⟨1, ![16777216]⟩
abbrev S_ : Shape := ⟨0, ![]⟩
abbrev S1025 : Shape := ⟨1, ![1025]⟩
abbrev S16777216x1 : Shape := ⟨2, ![16777216, 1]⟩

abbrev nBuf : Space → Nat
  | .hbm => 20
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x4096, .i32⟩
  | .hbm, ⟨2, _⟩ => ⟨S4096x4096, .f32⟩
  | .hbm, ⟨3, _⟩ => ⟨S4096x4096, .i32⟩
  | .hbm, ⟨4, _⟩ => ⟨S16777216, .f32⟩
  | .hbm, ⟨5, _⟩ => ⟨S16777216, .i32⟩
  | .hbm, ⟨6, _⟩ => ⟨S_, .f32⟩
  | .hbm, ⟨7, _⟩ => ⟨S1025, .f32⟩
  | .hbm, ⟨8, _⟩ => ⟨S16777216x1, .i32⟩
  | .hbm, ⟨9, _⟩ => ⟨S1025, .f32⟩
  | .hbm, ⟨10, _⟩ => ⟨S16777216, .f32⟩
  | .hbm, ⟨11, _⟩ => ⟨S16777216, .i32⟩
  | .hbm, ⟨12, _⟩ => ⟨S_, .f32⟩
  | .hbm, ⟨13, _⟩ => ⟨S1025, .f32⟩
  | .hbm, ⟨14, _⟩ => ⟨S16777216x1, .i32⟩
  | .hbm, ⟨15, _⟩ => ⟨S1025, .f32⟩
  | .hbm, ⟨16, _⟩ => ⟨S1025, .f32⟩
  | .hbm, ⟨17, _⟩ => ⟨S1025, .f32⟩
  | .hbm, ⟨18, _⟩ => ⟨S_, .f32⟩
  | .hbm, ⟨19, _⟩ => ⟨S_, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_1 : Ref sig .tc := ⟨.hbm, 18, rfl⟩
abbrev main_v12 : Ref sig .tc := ⟨.hbm, 19, rfl⟩

abbrev nD : Nat := 1
abbrev τ : Topo := Topo.v7x

variable {F : FTy → Type} [FloatOps F]

class Facts₀ : Prop where
  shapeCasts_S4096x4096_S16777216 : S4096x4096.ShapeCasts S16777216
  bcast_S_S1025 : S_.BroadcastsInDim S1025 (![] : Fin 0 → Fin S1025.rank)
  bcast_S16777216_S16777216x1_0 : S16777216.BroadcastsInDim S16777216x1 (![0] : Fin 1 → Fin S16777216x1.rank)
  reducesTo_S1025_S_d0 : S1025.ReducesTo [0] S_
  h_S_ : 0 < S_.numel
  scatter_S1025_S16777216x1_S16777216_n_0_0_1_wf : ScatterDims.WF S1025 S16777216x1 S16777216 [] [0] [0] 1

variable [Facts₀]

def scatter_S1025_S16777216x1_S16777216_n_0_0_1 : ScatterDims S1025 S16777216x1 S16777216 where
  updateWindowDims := []
  insertedWindowDims := [0]
  scatterDimsToOperandDims := [0]
  indexVectorDim := 1
  wf := scatter_S1025_S16777216x1_S16777216_n_0_0_1_wf

class Facts : Prop extends Facts₀ where

variable [Facts]
-- ==== Proof.PreDecode.lean ====
/-
  What the precondition says of the four argument arrays. The printed predicate is a conjunction of four "all"
  reductions: every entry of each density array has absolute value below +∞, and every word of each mask array is
  below 1025 as a signed integer. Read back at one entry: the densities are real numbers, the mask words are
  below 1025.
-/
import proofs.«400608_j11398843203872_1_alg».proof.Pre_finite_inputs
import proofs.«400608_j11398843203872_1_alg».proof.Proof.Gen.Pre_finite_inputs
import Idealize.ShloMosaic.Lib.ReduceAll
import Idealize.ShloMosaic.Lib.StableHlo.Predicate
import Idealize.ShloMosaic.Lib.ValueIdx
import Idealize.ShloMosaic.PureOps.Ideal.Laws

open Idealize.ShloMosaic

namespace Cert.PreDecode

open Cert.Pre_finite_inputs Cert.Pre_finite_inputs.Gen

instance : Subsingleton S_.Idx := ⟨fun a b => funext fun d => d.elim0⟩

/-- An extended real whose absolute value `max x (-x)` is below the f32 pattern of +∞ is a real number. -/
theorem real_of_abs_lt (x : EReal)
    (h : Ideal.cmp .olt (max x (-x)) (Ideal.ofBits .f32 0x7F800000#32) = 1#1) : ∃ r : ℝ, x = (r : EReal) := by
  have htop : Ideal.ofBits .f32 0x7F800000#32 = ⊤ := by simp [Ideal.ofBits, Ideal.ieee]
  rw [htop] at h
  simp only [Ideal.cmp] at h
  rw [StableHlo.Predicate.ofBool_eq_one_iff, decide_eq_true_eq] at h
  induction x using EReal.rec with
  | bot => simp at h
  | top => simp at h
  | coe r => exact ⟨r, rfl⟩

/-- The precondition, entry by entry. -/
theorem decode (od : FVec Ideal S4096x4096 .f32) (om : IVec S4096x4096 32) (pd : FVec Ideal S4096x4096 .f32)
    (nm : IVec S4096x4096 32) (h : fn (F := Ideal) od om pd nm = fun _ => 1#1) :
    (∀ i, ∃ r : ℝ, od i = (r : EReal)) ∧ (∀ i, (om i).toInt < 1025)
      ∧ (∀ i, ∃ r : ℝ, pd i = (r : EReal)) ∧ (∀ i, (nm i).toInt < 1025) := by
  have h0 := congrFun h ValueIdx.ix0
  dsimp only [fn, fn_part1] at h0
  unfold andi at h0
  rw [IntOp.andi_eq_one, IntOp.andi_eq_one, IntOp.andi_eq_one] at h0
  obtain ⟨⟨⟨h1, h2⟩, h3⟩, h4⟩ := h0
  refine ⟨fun i => ?_, fun i => ?_, fun i => ?_, fun i => ?_⟩
  · have e := Host.reduce_andi_all _ _ _ _ _ h1 i
    rw [ValueIdx.cmpf_apply, StableHlo.Predicate.bcast_scalar _ h_S_] at e
    exact real_of_abs_lt (od i) e
  · have e := Host.reduce_andi_all _ _ _ _ _ h3 i
    have e' : IntOp.cmpi .slt (om i) (1025#32) = 1#1 := by
      rw [← e]; unfold cmpi; rw [StableHlo.Predicate.bcast_scalar _ h_S_]; rfl
    have := IntOp.cmpi_slt.mp e'
    exact this
  · have e := Host.reduce_andi_all _ _ _ _ _ h2 i
    rw [ValueIdx.cmpf_apply, StableHlo.Predicate.bcast_scalar _ h_S_] at e
    exact real_of_abs_lt (pd i) e
  · have e := Host.reduce_andi_all _ _ _ _ _ h4 i
    have e' : IntOp.cmpi .slt (nm i) (1025#32) = 1#1 := by
      rw [← e]; unfold cmpi; rw [StableHlo.Predicate.bcast_scalar _ h_S_]; rfl
    have := IntOp.cmpi_slt.mp e'
    exact this

end Cert.PreDecode
-- ==== Proof.StepValue.lean ====
/-
  What one grid point leaves in the output's staging buffer, as a value. In both control cases the body's last store
  covers the buffer with "what was there, plus the second tile sum minus the first". At a point that begins a half of
  the grid the body first stores zeros and reads them back, so "what was there" is the zero block; at every other
  point it is what the point before left.
-/
import proofs.«400608_j11398843203872_1_alg».proof.Proof.Gen.KernelIdeal.Frame
import Idealize.ShloMosaic.Lib.Pipeline.Value
import Idealize.ShloMosaic.Lib.Tactic

set_option maxRecDepth 16384

noncomputable section

open Idealize.ShloMosaic Idealize.ShloMosaic.TcCoe Idealize.SL.Sem

namespace Cert.KernelIdeal.StepValue

open Cert.KernelIdeal Cert.KernelIdeal.Gen

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- A point that does not begin a half: the buffer held `xo`, and ends at `xo` plus the difference of the two tile
    sums. -/
theorem out_B (c : Dev nD) (i : grid0.Coords) (a3 : Memref sig .tc .vmem S8x128 .f32) (h3 : a3.IsWhole) (a4 : Memref sig .tc .vmem S8x128 .i32) (h4 : a4.IsWhole) (a5 : Memref sig .tc .vmem S8x128 .f32) (h5 : a5.IsWhole) (a6 : Memref sig .tc .vmem S8x128 .i32) (h6 : a6.IsWhole) (a7 : Memref sig .tc .vmem S1152x1 .i32) (h7 : a7.IsWhole) (a8 : Memref sig .tc .vmem S1x1152x1 .f32) (h8 : a8.IsWhole) (hc : ¬cond0_0 i)
    (x0 : Vec F S8x128 .f32) (x1 : Vec F S8x128 .i32) (x2 : Vec F S8x128 .f32) (x3 : Vec F S8x128 .i32)
    (x4 : Vec F S1152x1 .i32) (xo : Vec F S1x1152x1 .f32) :
    out0_B_5 c i a3 h3 a4 h4 a5 h5 a6 h6 a7 h7 a8 h8 hc x0 x1 x2 x3 x4 xo = k0_pay1 (k0_pay4 x4 x1 x0) (k0_pay5 x4 x3 x2) xo := by
  unfold out0_B_5
  rw [View.read_writes_eq_canon _ _ _ (cover0_B_5 c i a3 h3 a4 h4 a5 h5 a6 h6 a7 h7 a8 h8 hc x0 x1 x2 x3 x4 xo)]
  unfold kernelRun0_B
  dsimp only
  sl_unfold_words
  rw [View.canon_unit_zero hz3]
  simp only [View.readAt_eq_ld, h3.read_unread, h4.read_unread, h5.read_unread, h6.read_unread, h7.read_unread,
    h8.read_unread, View.ld_unit_zero (S := S8x128) hz2, View.ld_unit_zero (S := S1152x1) hz2,
    View.ld_unit_zero (S := S1x1152x1) hz3]

/-- A point that begins a half: the buffer is reset to zeros first, so it ends at the zero block plus the difference
    of the two tile sums. -/
theorem out_A (c : Dev nD) (i : grid0.Coords) (a3 : Memref sig .tc .vmem S8x128 .f32) (h3 : a3.IsWhole) (a4 : Memref sig .tc .vmem S8x128 .i32) (h4 : a4.IsWhole) (a5 : Memref sig .tc .vmem S8x128 .f32) (h5 : a5.IsWhole) (a6 : Memref sig .tc .vmem S8x128 .i32) (h6 : a6.IsWhole) (a7 : Memref sig .tc .vmem S1152x1 .i32) (h7 : a7.IsWhole) (a8 : Memref sig .tc .vmem S1x1152x1 .f32) (h8 : a8.IsWhole) (hc : cond0_0 i)
    (x0 : Vec F S8x128 .f32) (x1 : Vec F S8x128 .i32) (x2 : Vec F S8x128 .f32) (x3 : Vec F S8x128 .i32)
    (x4 : Vec F S1152x1 .i32) :
    out0_A_5 c i a3 h3 a4 h4 a5 h5 a6 h6 a7 h7 a8 h8 hc x0 x1 x2 x3 x4 = k0_pay1 (k0_pay4 x4 x1 x0) (k0_pay5 x4 x3 x2) (k0_pay2 (F := F)) := by
  unfold out0_A_5
  rw [View.read_writes_eq_canon _ _ _ (cover0_A_5 c i a3 h3 a4 h4 a5 h5 a6 h6 a7 h7 a8 h8 hc x0 x1 x2 x3 x4)]
  unfold kernelRun0_A
  dsimp only
  sl_unfold_words
  rw [View.canon_cons_unit_zero (S := S1x1152x1) hz3, View.readCov_unit_zero (S := S1x1152x1) _ hz3]
  simp only [View.readAt_eq_ld, h3.read_unread, h4.read_unread, h5.read_unread, h6.read_unread, h7.read_unread,
    View.ld_unit_zero (S := S8x128) hz2, View.ld_unit_zero (S := S1152x1) hz2,
    View.ld_unit_zero (S := S1x1152x1) hz3]

end Cert.KernelIdeal.StepValue

end
-- ==== Proof.TileSums.lean ====
/-
  One tile's contribution, read at a bin. The body compares the column of 1152 bin words with every word of an
  8 × 128 tile of a mask, turns each comparison into 0.0 or 1.0, multiplies by the tile of densities, and sums over the
  128 lanes and then over the 8 rows. At the ideal values the result at bin `b` is the sum over the tile's entries of the
  density where the mask word equals the bin's word, and of 0 elsewhere — the indicator written as a factor 0 or 1.
-/
import proofs.«400608_j11398843203872_1_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws

noncomputable section

open scoped BigOperators
open Idealize.ShloMosaic Idealize.ShloMosaic.ValueIdx

namespace Cert.KernelIdeal.TileSums

open Cert.KernelIdeal Cert.KernelIdeal.Gen

variable {α : Type}

/-! ## Layout operations with a trailing unit axis, read at an index -/

/-- An `[a]` array cast to `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    omega)

/-- An `[a, 1]` array cast to `[a, 1, 1]` reads, at `(i, u, v)`, the operand at `(i, 0)`. -/
theorem shapeCast_a1_a11_apply {a : ℕ} (x : (⟨2, ![a, 1]⟩ : Shape).Idx → α)
    (h : (⟨2, ![a, 1]⟩ : Shape).ShapeCasts ⟨3, ![a, 1, 1]⟩) (i : Fin a) (u v : Fin 1) :
    shapeCast ⟨3, ![a, 1, 1]⟩ x h (ix3 i u v) = x (ix2 i (0 : Fin 1)) :=
  shapeCast_apply x h _ _ (by
    have hu : u.val = 0 := by omega
    have hv : v.val = 0 := by omega
    rw [Shape.rowMajor_val_three, Shape.rowMajor_val_two]
    show i.val * 1 + 0 = (i.val * 1 + u.val) * 1 + v.val
    omega)

/-- An `[a, 1, 1]` array broadcast to `[a, b, c]` reads, at `(i, y, x)`, the operand at `(i, 0, 0)`. -/
theorem broadcastTo_a11_abc_apply {a b c : ℕ} (v : (⟨3, ![a, 1, 1]⟩ : Shape).Idx → α)
    (h : (⟨3, ![a, 1, 1]⟩ : Shape).Broadcasts ⟨3, ![a, b, c]⟩) (i : Fin a) (y : Fin b) (x : Fin c) :
    broadcastTo ⟨3, ![a, b, c]⟩ v h (ix3 i y x) = v (ix3 i (0 : Fin 1) (0 : Fin 1)) := by
  refine broadcastTo_apply v h (ix3 i y x) (ix3 i (0 : Fin 1) (0 : Fin 1)) fun ax => ?_
  match ax with
  | ⟨0, _⟩ =>
    show i.val = if a = 1 then 0 else i.val
    split
    · have := i.isLt; omega
    · rfl
  | ⟨1, _⟩ => rfl
  | ⟨2, _⟩ => rfl

/-- A `[1, b, c]` array broadcast to `[a, b, c]` reads, at `(i, y, x)`, the operand at `(0, y, x)`. -/
theorem broadcastTo_1bc_abc_apply {a b c : ℕ} (v : (⟨3, ![1, b, c]⟩ : Shape).Idx → α)
    (h : (⟨3, ![1, b, c]⟩ : Shape).Broadcasts ⟨3, ![a, b, c]⟩) (i : Fin a) (y : Fin b) (x : Fin c) :
    broadcastTo ⟨3, ![a, b, c]⟩ v h (ix3 i y x) = v (ix3 (0 : Fin 1) y x) := by
  refine broadcastTo_apply v h (ix3 i y x) (ix3 (0 : Fin 1) y x) fun ax => ?_
  match ax with
  | ⟨0, _⟩ => rfl
  | ⟨1, _⟩ =>
    show y.val = if b = 1 then 0 else y.val
    split
    · have := y.isLt; omega
    · rfl
  | ⟨2, _⟩ =>
    show x.val = if c = 1 then 0 else x.val
    split
    · have := x.isLt; omega
    · rfl

/-! ## The comparison as a factor -/

/-- The comparison bit of two words, widened to 32 bits and read as a signed integer, is 1 where they are equal
    and 0 where they are not. -/
theorem onehot_toInt (p q : BitVec 32) :
    (((IntOp.cmpi .eq p q).setWidth 32).toInt : ℝ) = if p = q then 1 else 0 := by
  by_cases h : p = q
  · subst h
    simp [IntOp.cmpi]
  · have hb : (p == q) = false := by simpa using h
    simp [IntOp.cmpi, hb, h]

/-! ## A tile's masked sum at a bin -/

/-- A float sum over one axis at the ideal values, the accumulator the zero pattern as the body prints it. -/
theorem sum_axis {s t : Shape} {a : Fin s.rank} (src : FVec Ideal s .f32) (h : s.Reduces [a] t) (hφ : FKind.Formats .f32)
    (hacc : (0x00000000#32 : BitVec 32) = FKind.add.neutral .f32 hφ) (j : t.Idx) :
    multiReduction .add [a] t src 0x00000000#32 h hφ hacc j = ∑ k : Fin (s.size a), src (h.lift j k) :=
  Ideal.multiReduction_add_single src _ h hφ hacc j

/-- The masked sum of one tile at bin `b`: over the tile's entries, the density times 1 where the mask word is the
    bin's word and times 0 elsewhere. -/
theorem pay4_apply (bins : IVec S1152x1 32) (msk : IVec S8x128 32) (d : FVec Ideal S8x128 .f32) (b : Fin 1152) :
    k0_pay4 (F := Ideal) bins msk d (ix2 b (0 : Fin 1))
      = ∑ y : Fin 8, ∑ x : Fin 128,
          (((if bins (ix2 b (0 : Fin 1)) = msk (ix2 y x) then 1 else 0 : ℝ) : ℝ) : EReal) * d (ix2 y x) := by
  unfold k0_pay4
  dsimp only
  refine (shapeCast_a_a1_apply _ _ b 0).trans ?_
  refine (sum_axis _ _ _ _ _).trans ?_
  show ∑ y : Fin 8, _ = ∑ y : Fin 8, _
  refine Finset.sum_congr rfl fun (y : Fin 8) _ => ?_
  refine (sum_axis _ _ _ _ _).trans ?_
  show ∑ x : Fin 128, _ = ∑ x : Fin 128, _
  refine Finset.sum_congr rfl fun (x : Fin 128) _ => ?_
  have hl : (reduces_S1152x8x128_S1152x8).lift ((reduces_S1152x8_S1152).lift (ix1 b) y) x = ix3 b y x := by
    funext a
    match a with
    | ⟨0, _⟩ => rfl
    | ⟨1, _⟩ => rfl
    | ⟨2, _⟩ => rfl
  have e1 : broadcastTo S1152x8x128 (k0_pay3 (F := Ideal) bins) broadcasts_S1152x1x1_S1152x8x128 (ix3 b y x)
      = bins (ix2 b (0 : Fin 1)) := by
    rw [broadcastTo_a11_abc_apply]
    unfold k0_pay3
    rw [shapeCast_a1_a11_apply, shapeCast_self]
  have e2 : broadcastTo S1152x8x128 (shapeCast S1x8x128 msk shapeCasts_S8x128_S1x8x128) broadcasts_S1x8x128_S1152x8x128
      (ix3 b y x) = msk (ix2 y x) := by
    rw [broadcastTo_1bc_abc_apply, shapeCast_ab_1ab_apply]
  have e3 : broadcastTo S1152x8x128 (shapeCast S1x8x128 d shapeCasts_S8x128_S1x8x128) broadcasts_S1x8x128_S1152x8x128
      (ix3 b y x) = d (ix2 y x) := by
    rw [broadcastTo_1bc_abc_apply, shapeCast_ab_1ab_apply]
  rw [hl, mulf_apply, sitofp_apply, extui_apply, e3]
  unfold cmpi
  rw [e1, e2]
  show ((((IntOp.cmpi .eq (bins (ix2 b (0 : Fin 1))) (msk (ix2 y x))).setWidth 32).toInt : ℝ) : EReal) * _ = _
  rw [onehot_toInt]

/-- The body's second masked sum is the same function of its three operands as the first. -/
theorem pay5_apply (bins : IVec S1152x1 32) (msk : IVec S8x128 32) (d : FVec Ideal S8x128 .f32) (b : Fin 1152) :
    k0_pay5 (F := Ideal) bins msk d (ix2 b (0 : Fin 1))
      = ∑ y : Fin 8, ∑ x : Fin 128,
          (((if bins (ix2 b (0 : Fin 1)) = msk (ix2 y x) then 1 else 0 : ℝ) : ℝ) : EReal) * d (ix2 y x) :=
  pay4_apply bins msk d b

end Cert.KernelIdeal.TileSums

end
-- ==== Proof.BinSums.lean ====
/-
  Weighted bin counts over the reals, with no program in sight.

  For a table of 32-bit words `msk` and real weights `d` over one index set, `binSum msk d w` is the total weight of
  the entries whose word is `w`. The loss compares two such histograms bin by bin over the bins 0 … 1024.
  Three facts are proved here:
    * a bin numbered 1025 … 1151 is empty as soon as every word, read as a signed integer, is below 1025
      (`binSum_eq_zero`), so summing the absolute differences over 1152 bins or over 1025 is the same (`sum_padded`);
    * a sum over the 4096 × 4096 index set is the sum over its 16384 tiles of 8 × 128 entries, the tiles taken in
      row-major order of their block coordinates (`sum_tiles`), and also the sum over the 16777216 row-major
      positions (`sum_flat`);
    * a sum over two halves of 8192 consecutive positions each is the sum over all 16384 (`sum_halves`).
-/
import Idealize.ShloMosaic.PureOps.Ideal
import Idealize.ShloMosaic.Lib.ValueIdx
import Idealize.ShloMosaic.Lib.WordArith

open scoped BigOperators
open Idealize.ShloMosaic Idealize.ShloMosaic.ValueIdx

namespace Cert.BinSums

/-- The index set of a 4096 × 4096 array. -/
abbrev Grid2 : Type := (⟨2, ![4096, 4096]⟩ : Shape).Idx

/-! ## Bin counts -/

/-- The total weight of the entries whose word is `w`. -/
def binSum {I : Type} [Fintype I] (msk : I → BitVec 32) (d : I → ℝ) (w : BitVec 32) : ℝ :=
  ∑ i, if msk i = w then d i else 0

/-- The loss: over the bins 0 … 1024, the absolute difference of the two histograms, summed. -/
def loss {I : Type} [Fintype I] (om nm : I → BitVec 32) (od pd : I → ℝ) : ℝ :=
  ∑ b : Fin 1025, |binSum nm pd (BitVec.ofNat 32 b.val) - binSum om od (BitVec.ofNat 32 b.val)|

/-- A bin numbered from 1025 up (below 2³¹) receives nothing when every word is below 1025 as a signed integer:
    the word `b` read signed is `b` itself. -/
theorem binSum_eq_zero {I : Type} [Fintype I] (msk : I → BitVec 32) (d : I → ℝ)
    (hm : ∀ i, (msk i).toInt < 1025) (b : ℕ) (hb : 1025 ≤ b) (hb' : b < 2 ^ 31) :
    binSum msk d (BitVec.ofNat 32 b) = 0 := by
  unfold binSum
  refine Finset.sum_eq_zero fun i _ => if_neg fun h => ?_
  have h1 := hm i
  rw [h, WordArith.toInt_ofNat_small b hb'] at h1
  omega

/-- Summing the absolute differences over 1152 bins, of which the last 127 are empty on both sides, is the loss. -/
theorem sum_padded {I : Type} [Fintype I] (om nm : I → BitVec 32) (od pd : I → ℝ)
    (hom : ∀ i, (om i).toInt < 1025) (hnm : ∀ i, (nm i).toInt < 1025) :
    ∑ b : Fin 1152, |binSum nm pd (BitVec.ofNat 32 b.val) - binSum om od (BitVec.ofNat 32 b.val)|
      = loss om nm od pd := by
  unfold loss
  rw [Fin.sum_univ_eq_sum_range (fun n => |binSum nm pd (BitVec.ofNat 32 n) - binSum om od (BitVec.ofNat 32 n)|) 1152,
    Fin.sum_univ_eq_sum_range (fun n => |binSum nm pd (BitVec.ofNat 32 n) - binSum om od (BitVec.ofNat 32 n)|) 1025,
    ← Finset.sum_range_add_sum_Ico _ (by norm_num : 1025 ≤ 1152)]
  rw [Finset.sum_eq_zero (s := Finset.Ico 1025 1152), add_zero]
  intro n hn
  rw [Finset.mem_Ico] at hn
  rw [binSum_eq_zero nm pd hnm n hn.1 (by omega), binSum_eq_zero om od hom n hn.1 (by omega), sub_zero, abs_zero]

/-! ## The array as tiles, and as a row -/

/-- Entry `(y, x)` of tile `t`: the tiles are 8 rows by 128 columns, 32 to a row of tiles. -/
def tileIdx (t : Fin 16384) (y : Fin 8) (x : Fin 128) : Grid2 :=
  ix2 ⟨(t.val / 32) * 8 + y.val, by have := t.isLt; have := y.isLt; omega⟩
      ⟨(t.val % 32) * 128 + x.val, by have := x.isLt; omega⟩

theorem tileIdx_val0 (t : Fin 16384) (y : Fin 8) (x : Fin 128) : (tileIdx t y x 0).val = (t.val / 32) * 8 + y.val := rfl
theorem tileIdx_val1 (t : Fin 16384) (y : Fin 8) (x : Fin 128) : (tileIdx t y x 1).val = (t.val % 32) * 128 + x.val := rfl

/-- Every entry of the array lies in exactly one tile, at one place. -/
def tileEquiv : Fin 16384 × Fin 8 × Fin 128 ≃ Grid2 where
  toFun q := tileIdx q.1 q.2.1 q.2.2
  invFun i := (⟨((i 0).val / 8) * 32 + (i 1).val / 128, by have := idx2_lt0 i; have := idx2_lt1 i; omega⟩,
    ⟨(i 0).val % 8, by omega⟩, ⟨(i 1).val % 128, by omega⟩)
  left_inv q := by
    obtain ⟨t, y, x⟩ := q
    have := t.isLt; have := y.isLt; have := x.isLt
    refine Prod.ext (Fin.ext ?_) (Prod.ext (Fin.ext ?_) (Fin.ext ?_))
    · show ((t.val / 32) * 8 + y.val) / 8 * 32 + ((t.val % 32) * 128 + x.val) / 128 = t.val
      omega
    · show ((t.val / 32) * 8 + y.val) % 8 = y.val
      omega
    · show ((t.val % 32) * 128 + x.val) % 128 = x.val
      omega
  right_inv i := by
    have h0 := idx2_lt0 i; have h1 := idx2_lt1 i
    funext a
    match a with
    | ⟨0, _⟩ =>
      apply Fin.ext
      show ((((i 0).val / 8) * 32 + (i 1).val / 128) / 32) * 8 + (i 0).val % 8 = (i 0).val
      omega
    | ⟨1, _⟩ =>
      apply Fin.ext
      show ((((i 0).val / 8) * 32 + (i 1).val / 128) % 32) * 128 + (i 1).val % 128 = (i 1).val
      omega

/-- A sum over the array, tile by tile. -/
theorem sum_tiles {M : Type} [AddCommMonoid M] (f : Grid2 → M) :
    ∑ i, f i = ∑ t : Fin 16384, ∑ y : Fin 8, ∑ x : Fin 128, f (tileIdx t y x) := by
  rw [← tileEquiv.sum_comp f, Fintype.sum_prod_type]
  refine Finset.sum_congr rfl fun t _ => ?_
  rw [Fintype.sum_prod_type]
  rfl

/-- Position `j` of the array laid out as one row, row-major. -/
def flatIdx (j : Fin 16777216) : Grid2 :=
  ix2 ⟨j.val / 4096, by have := j.isLt; omega⟩ ⟨j.val % 4096, by omega⟩

theorem flatIdx_val0 (j : Fin 16777216) : (flatIdx j 0).val = j.val / 4096 := rfl
theorem flatIdx_val1 (j : Fin 16777216) : (flatIdx j 1).val = j.val % 4096 := rfl

def flatEquiv : Fin 16777216 ≃ Grid2 where
  toFun := flatIdx
  invFun i := ⟨(i 0).val * 4096 + (i 1).val, by have := idx2_lt0 i; have := idx2_lt1 i; omega⟩
  left_inv j := by
    apply Fin.ext
    show (j.val / 4096) * 4096 + j.val % 4096 = j.val
    omega
  right_inv i := by
    have h0 := idx2_lt0 i; have h1 := idx2_lt1 i
    funext a
    match a with
    | ⟨0, _⟩ =>
      apply Fin.ext
      show ((i 0).val * 4096 + (i 1).val) / 4096 = (i 0).val
      omega
    | ⟨1, _⟩ =>
      apply Fin.ext
      show ((i 0).val * 4096 + (i 1).val) % 4096 = (i 1).val
      omega

/-- A sum over the array, position by position of its row-major layout. -/
theorem sum_flat {M : Type} [AddCommMonoid M] (f : Grid2 → M) : ∑ i, f i = ∑ j : Fin 16777216, f (flatIdx j) :=
  (flatEquiv.sum_comp f).symm

/-! ## The real identity -/

/-- A bin's count, tile by tile, the indicator written as a factor. -/
theorem binSum_tiles (msk : Grid2 → BitVec 32) (d : Grid2 → ℝ) (w : BitVec 32) :
    binSum msk d w = ∑ t : Fin 16384, ∑ y : Fin 8, ∑ x : Fin 128,
      (if msk (tileIdx t y x) = w then (1 : ℝ) else 0) * d (tileIdx t y x) := by
  unfold binSum
  rw [sum_tiles]
  refine Finset.sum_congr rfl fun t _ => Finset.sum_congr rfl fun y _ => Finset.sum_congr rfl fun x _ => ?_
  split <;> simp

/-- What the tiled accumulation computes, over the reals: per bin the tiles' differences summed, then the absolute
    values over the 1152 padded bins — the loss. -/
theorem tiled_eq_loss (om nm : Grid2 → BitVec 32) (od pd : Grid2 → ℝ)
    (hom : ∀ i, (om i).toInt < 1025) (hnm : ∀ i, (nm i).toInt < 1025) :
    ∑ b : Fin 1152, |∑ t : Fin 16384,
        ((∑ y : Fin 8, ∑ x : Fin 128,
            (if nm (tileIdx t y x) = BitVec.ofNat 32 b.val then (1 : ℝ) else 0) * pd (tileIdx t y x))
          - (∑ y : Fin 8, ∑ x : Fin 128,
            (if om (tileIdx t y x) = BitVec.ofNat 32 b.val then (1 : ℝ) else 0) * od (tileIdx t y x)))|
      = loss om nm od pd := by
  rw [← sum_padded om nm od pd hom hnm]
  refine Finset.sum_congr rfl fun b _ => ?_
  rw [Finset.sum_sub_distrib, ← binSum_tiles, ← binSum_tiles]

/-- The masked sum of tile `t` at the bin numbered `b`, over the reals. -/
def tileSumR (msk : Grid2 → BitVec 32) (d : Grid2 → ℝ) (t : Fin 16384) (b : ℕ) : ℝ :=
  ∑ y : Fin 8, ∑ x : Fin 128, (if msk (tileIdx t y x) = BitVec.ofNat 32 b then (1 : ℝ) else 0) * d (tileIdx t y x)

/-- What tile number `s` adds to bin `b`: the difference of the two masked sums; 0 past the tiles. -/
def tileDiffR (om nm : Grid2 → BitVec 32) (od pd : Grid2 → ℝ) (s b : ℕ) : ℝ :=
  if h : s < 16384 then tileSumR nm pd ⟨s, h⟩ b - tileSumR om od ⟨s, h⟩ b else 0

/-- The tiled accumulation with the tiles numbered: the loss. -/
theorem tiled_range_eq_loss (om nm : Grid2 → BitVec 32) (od pd : Grid2 → ℝ)
    (hom : ∀ i, (om i).toInt < 1025) (hnm : ∀ i, (nm i).toInt < 1025) :
    ∑ b : Fin 1152, |∑ s ∈ Finset.range 16384, tileDiffR om nm od pd s b.val| = loss om nm od pd := by
  rw [← tiled_eq_loss om nm od pd hom hnm]
  refine Finset.sum_congr rfl fun b _ => ?_
  rw [Finset.sum_range]
  refine congrArg (fun r : ℝ => |r|) ?_
  refine Finset.sum_congr rfl fun t _ => ?_
  unfold tileDiffR
  rw [dif_pos t.isLt]
  rfl

/-! ## Sums over the 16384 positions, by halves -/

/-- The positions of one half, up to the half's last position, are all of the half's positions: extending the sum to
    every position adds only positions of the other half. -/
theorem sum_half_prefix {M : Type} [AddCommMonoid M] (f : ℕ → M) (n : ℕ) (hn : n % 8192 = 8191) (hN : n < 16384) :
    ∑ s ∈ Finset.range (n + 1), (if s / 8192 = n / 8192 then f s else 0)
      = ∑ s ∈ Finset.range 16384, (if s / 8192 = n / 8192 then f s else 0) := by
  have hsub : Finset.range (n + 1) ⊆ Finset.range 16384 := by
    intro s hs
    rw [Finset.mem_range] at hs ⊢
    omega
  refine Finset.sum_subset hsub fun s hs hns => ?_
  rw [Finset.mem_range] at hs hns
  rw [if_neg]
  omega

/-- The two halves' sums together are the sum over every position. -/
theorem sum_halves {M : Type} [AddCommMonoid M] (f : ℕ → M) :
    (∑ s ∈ Finset.range 16384, (if s / 8192 = 0 then f s else 0))
        + (∑ s ∈ Finset.range 16384, (if s / 8192 = 1 then f s else 0))
      = ∑ s ∈ Finset.range 16384, f s := by
  rw [← Finset.sum_add_distrib]
  refine Finset.sum_congr rfl fun s hs => ?_
  rw [Finset.mem_range] at hs
  by_cases h0 : s / 8192 = 0
  · rw [if_pos h0, if_neg (by omega), add_zero]
  · rw [if_neg h0, if_pos (by omega), zero_add]

/-! ## Between the reals and the extended reals -/

/-- The coercion into the extended reals goes through a finite sum. -/
theorem coe_sum {ι : Type} (s : Finset ι) (f : ι → ℝ) : ((∑ i ∈ s, f i : ℝ) : EReal) = ∑ i ∈ s, ((f i : ℝ) : EReal) := by
  classical
  induction s using Finset.induction_on with
  | empty => simp
  | insert a s ha ih => rw [Finset.sum_insert ha, Finset.sum_insert ha, EReal.coe_add, ih]

/-- The absolute value as the extended reals spell it, `max c (-c)`, of a real. -/
theorem max_neg_coe (c : ℝ) : max ((c : ℝ) : EReal) (-((c : ℝ) : EReal)) = ((|c| : ℝ) : EReal) := by
  rw [← EReal.coe_neg, abs_eq_max_neg, EReal.coe_strictMono.monotone.map_max]

/-- A word read signed is the number `b` (below 2³¹) exactly when it is `b`'s 32-bit word. -/
theorem toInt_eq_natCast_iff (w : BitVec 32) (b : ℕ) (hb : b < 2 ^ 31) : w.toInt = (b : ℤ) ↔ w = BitVec.ofNat 32 b := by
  constructor
  · intro h
    apply BitVec.eq_of_toInt_eq
    rw [h, WordArith.toInt_ofNat_small b hb]
  · rintro rfl
    exact WordArith.toInt_ofNat_small b hb

/-- A bin's count read position by position of the row-major layout, on the extended reals, the bin tested on the
    word's signed reading. -/
theorem coe_binSum_flat (msk : Grid2 → BitVec 32) (d : Grid2 → ℝ) (b : ℕ) (hb : b < 2 ^ 31) :
    ((binSum msk d (BitVec.ofNat 32 b) : ℝ) : EReal)
      = ∑ n : Fin 16777216, if (msk (flatIdx n)).toInt = (b : ℤ) then ((d (flatIdx n) : ℝ) : EReal) else 0 := by
  unfold binSum
  rw [sum_flat, coe_sum]
  refine Finset.sum_congr rfl fun n _ => ?_
  by_cases h : msk (flatIdx n) = BitVec.ofNat 32 b
  · rw [if_pos h, if_pos ((toInt_eq_natCast_iff _ b hb).mpr h)]
  · rw [if_neg h, if_neg (fun h' => h ((toInt_eq_natCast_iff _ b hb).mp h')), EReal.coe_zero]

end Cert.BinSums
-- ==== Proof.KernelValue.lean ====
/-
  The kernel's result at the ideal values.

  The grid has 16384 points, 8192 to each half of the row tiles; point `s` works on tile `s` of the four arrays. The
  output block of a half accumulates, bin by bin, the difference of the two masked tile sums of its points: it is
  reset at the half's first point, updated at every point, and written back to row `p` of the 2 × 1152 × 1 result
  array after the half's last point. So that array holds, at `(p, b, 0)`, the sum over the half's points of the
  differences at bin `b`. The host lines after the call add the two rows, take absolute values and add the 1152 bins.
-/
import proofs.«400608_j11398843203872_1_alg».proof.Proof.StepValue
import proofs.«400608_j11398843203872_1_alg».proof.Proof.TileSums
import proofs.«400608_j11398843203872_1_alg».proof.Proof.BinSums
import Idealize.ShloMosaic.Lib.Pipeline.Value
import Idealize.ShloMosaic.Lib.StableHlo.Run
import Idealize.ShloMosaic.Lib.IdealHost
import Idealize.ShloMosaic.Lib.ValueIdx
import Idealize.ShloMosaic.Lib.ValueLayout
import Idealize.ShloMosaic.Lib.Tactic

set_option maxRecDepth 16384
-- the facts decided over the 16384 grid points are checked one at a time
set_option Elab.async false

noncomputable section

open scoped BigOperators
open Idealize.ShloMosaic Idealize.ShloMosaic.TcCoe Idealize.SL.Sem Idealize.ShloMosaic.ValueIdx
open Idealize.ShloMosaic.Pipeline (Dat)

namespace Cert.KernelIdeal.HistValue

open Cert.KernelIdeal Cert.KernelIdeal.Gen

variable (m : (ℓ : Loc nD τ sig) → Buf (Elt Ideal) ℓ) (ρ : Dev nD → PrngReg)

/-! ## The blocks of a point, by their literal types -/

abbrev odB (c : Dev nD) (t : Fin cfg0.N) : FVec Ideal S8x128 .f32 := iblk m c 0 t
abbrev omB (c : Dev nD) (t : Fin cfg0.N) : IVec S8x128 32 := iblk m c 1 t
abbrev pdB (c : Dev nD) (t : Fin cfg0.N) : FVec Ideal S8x128 .f32 := iblk m c 2 t
abbrev nmB (c : Dev nD) (t : Fin cfg0.N) : IVec S8x128 32 := iblk m c 3 t
abbrev binB (c : Dev nD) (t : Fin cfg0.N) : IVec S1152x1 32 := iblk m c 4 t

/-- What point `t` adds to bin `b`: the second masked tile sum minus the first. -/
def tileDiff (c : Dev nD) (t : Fin cfg0.N) (b : Fin 1152) : EReal :=
  k0_pay5 (F := Ideal) (binB m c t) (nmB m c t) (pdB m c t) (ix2 b (0 : Fin 1))
    - k0_pay4 (F := Ideal) (binB m c t) (omB m c t) (odB m c t) (ix2 b (0 : Fin 1))

/-- The same at a number, 0 past the grid. -/
def tileDiffN (c : Dev nD) (s : ℕ) (b : Fin 1152) : EReal :=
  if h : s < cfg0.N then tileDiff m c ⟨s, h⟩ b else 0

/-! ## One point's update, at a bin -/

theorem pay1_apply (v21 v35 : FVec Ideal S1152x1 .f32) (acc : Vec Ideal S1x1152x1 .f32) (b : Fin 1152) :
    k0_pay1 (F := Ideal) v21 v35 acc (ix3 (0 : Fin 1) b (0 : Fin 1))
      = acc (ix3 (0 : Fin 1) b (0 : Fin 1)) + (v35 (ix2 b (0 : Fin 1)) - v21 (ix2 b (0 : Fin 1))) := by
  unfold k0_pay1
  rw [addf_apply, shapeCast_self, shapeCast_ab_1ab_apply, subf_apply]

theorem pay2_apply (j : S1x1152x1.Idx) : k0_pay2 (F := Ideal) j = 0 := by
  unfold k0_pay2
  exact Ideal.ofBits_zero_f32

/-! ## The running sum -/

/-- After point `n` the output's staging buffer holds, at bin `b`, the sum of the differences of the points of
    `n`'s half up to `n`. -/
theorem outsAt_eq (c : Dev nD) (b : Fin 1152) : ∀ (n : ℕ) (h : n < cfg0.N),
    outsAt0 m c n h (ix3 (0 : Fin 1) b (0 : Fin 1))
      = ∑ s ∈ Finset.range (n + 1), if s / 8192 = n / 8192 then tileDiffN m c s b else 0
  | 0, h => by
    rw [outsAt0_A m c ⟨0, h⟩ rfl, StepValue.out_A]
    refine (pay1_apply _ _ _ b).trans ?_
    rw [pay2_apply, zero_add, Finset.sum_range_one, if_pos rfl]
    unfold tileDiffN
    rw [dif_pos h]
    rfl
  | n + 1, h => by
    by_cases hr : (n + 1) % 8192 = 0
    · rw [outsAt0_A m c ⟨n + 1, h⟩ hr, StepValue.out_A]
      refine (pay1_apply _ _ _ b).trans ?_
      rw [pay2_apply, zero_add, Finset.sum_range_succ, if_pos rfl, Finset.sum_eq_zero, zero_add]
      · unfold tileDiffN
        rw [dif_pos h]
        rfl
      · intro s hs
        rw [Finset.mem_range] at hs
        rw [if_neg]
        omega
    · rw [outsAt0_B m c ⟨n + 1, h⟩ hr, StepValue.out_B]
      refine (pay1_apply _ _ _ b).trans ?_
      show outsAt0 m c n _ (ix3 (0 : Fin 1) b (0 : Fin 1)) + _ = _
      rw [outsAt_eq c b n, Finset.sum_range_succ (n := n + 1), if_pos rfl]
      congr 1
      · refine Finset.sum_congr rfl fun s hs => ?_
        have e : n / 8192 = (n + 1) / 8192 := by omega
        rw [e]
      · unfold tileDiffN
        rw [dif_pos h]
        rfl

/-! ## The result array -/

/-- Row `p`, bin `b` of the result array: the differences of the points of half `p`, summed. -/
def halfSum (c : Dev nD) (p : ℕ) (b : Fin 1152) : EReal :=
  ∑ s ∈ Finset.range 16384, if s / 8192 = p then tileDiffN m c s b else 0

/-- The same with the bin a number, 0 past the bins. -/
def halfSumN (c : Dev nD) (p q : ℕ) : EReal := if hq : q < 1152 then halfSum m c p ⟨q, hq⟩ else 0

theorem halfSumN_eq (c : Dev nD) (p : ℕ) (b : Fin 1152) : halfSumN m c p b.val = halfSum m c p b := by
  unfold halfSumN
  rw [dif_pos b.isLt]

/-- The result array after the call. -/
def outArr (c : Dev nD) : FVec Ideal S2x1152x1 .f32 :=
  fun j => halfSumN m c (j 0).val (j 1).val

/-- The output window at a point: its block index is the half's number on the first axis and 0 on the others, and
    the block is whole. -/
theorem idx5 : ∀ t : Fin cfg0.N, (win0_5.index t 0 = t.val / 8192 ∧ win0_5.index t 1 = 0 ∧ win0_5.index t 2 = 0)
      ∧ (win0_5.xsize (grid0.coords t) 0 = 1 ∧ win0_5.xsize (grid0.coords t) 1 = 1152 ∧ win0_5.xsize (grid0.coords t) 2 = 1) :=
  (by decide +kernel : ∀ t : Fin grid0.N, (win0_5.index t 0 = t.val / 8192 ∧ win0_5.index t 1 = 0 ∧ win0_5.index t 2 = 0)
      ∧ (win0_5.xsize (grid0.coords t) 0 = 1 ∧ win0_5.xsize (grid0.coords t) 1 = 1152 ∧ win0_5.xsize (grid0.coords t) 2 = 1))

/-- What a half's last point writes back is that half's row of the result array. -/
theorem flushed_eq (c : Dev nD) (t : Fin cfg0.N) (hf : (cfg0.win 5).flush t = true) :
    (dats m 0 c).flushed 5 t = ((cfg0.win 5).blk t).view.read (Elt Ideal) (outArr m c) := by
  have ht : t.val % 8192 = 8191 := (flush0_5 t).mp hf
  have hN : t.val < 16384 := lt_of_lt_of_eq t.isLt N_0
  obtain ⟨⟨hi0, hi1, hi2⟩, -⟩ := idx5 t
  show (cfg0.win 5).cut (grid0.coords t) ((dats m 0 c).after 5 t) = _
  rw [after0_5]
  funext y
  obtain ⟨u, b, v, rfl⟩ : ∃ (u : Fin 1) (b : Fin 1152) (v : Fin 1), y = ix3 u b v := ⟨y 0, y 1, y 2, eq_ix3 y⟩
  obtain rfl : u = 0 := Subsingleton.elim _ _
  obtain rfl : v = 0 := Subsingleton.elim _ _
  show outsAt0 m c t.val t.isLt (ix3 (0 : Fin 1) b (0 : Fin 1)) = _
  rw [outsAt_eq]
  show _ = outArr m c (((cfg0.win 5).blk t).view.emb (ix3 (0 : Fin 1) b (0 : Fin 1)))
  have e0 : ((((cfg0.win 5).blk t).view.emb (ix3 (0 : Fin 1) b (0 : Fin 1))) 0).val = t.val / 8192 := by
    show win0_5.index t 0 * 1 + 1 * 0 = _
    rw [hi0]; omega
  have e1 : ((((cfg0.win 5).blk t).view.emb (ix3 (0 : Fin 1) b (0 : Fin 1))) 1).val = b.val := by
    show win0_5.index t 1 * 1152 + 1 * b.val = _
    rw [hi1]; omega
  unfold outArr
  rw [e0, e1, halfSumN_eq]
  unfold halfSum
  exact Cert.BinSums.sum_half_prefix (fun s => tileDiffN m c s b) t.val ht hN

/-- So the result array ends holding the halves' sums. -/
theorem final5 (c : Dev nD) : (dats m 0 c).arrAt 5 cfg0.N = outArr m c :=
  (dats m 0 c).arrAt_eq_of_cover 5 (outArr m c) (flushed_eq m c) fun i => by
    have h0 : (i 0).val < 2 := (i 0).isLt
    have h1 : (i 1).val < 1152 := (i 1).isLt
    have h2 : (i 2).val < 1 := (i 2).isLt
    have hN : cfg0.N = 16384 := N_0
    obtain ⟨tp, htp⟩ : ∃ tp : Fin cfg0.N, tp.val = (i 0).val * 8192 + 8191 :=
      ⟨⟨(i 0).val * 8192 + 8191, by rw [hN]; omega⟩, rfl⟩
    obtain ⟨⟨hi0, hi1, hi2⟩, hx0, hx1, hx2⟩ := idx5 tp
    have hq : tp.val / 8192 = (i 0).val := by rw [htp]; omega
    rw [hq] at hi0
    refine ⟨tp, (flush0_5 tp).mpr (by rw [htp]; omega), ?_⟩
    show i ∈ ((View.whole main_v2).slice (win0_5.rect tp)).set
    rw [View.set_slice_whole, Rect.mem_set_unit]
    have f0 : win0_5.index tp 0 * 1 ≤ (i 0 : Nat) ∧ (i 0 : Nat) < win0_5.index tp 0 * 1 + win0_5.xsize (grid0.coords tp) 0 := by
      rw [hi0, hx0]; omega
    have f1 : win0_5.index tp 1 * 1152 ≤ (i 1 : Nat) ∧ (i 1 : Nat) < win0_5.index tp 1 * 1152 + win0_5.xsize (grid0.coords tp) 1 := by
      rw [hi1, hx1]; omega
    have f2 : win0_5.index tp 2 * 1 ≤ (i 2 : Nat) ∧ (i 2 : Nat) < win0_5.index tp 2 * 1 + win0_5.xsize (grid0.coords tp) 2 := by
      rw [hi2, hx2]; omega
    intro a
    match a with
    | ⟨0, _⟩ => exact f0
    | ⟨1, _⟩ => exact f1
    | ⟨2, _⟩ => exact f2

/-! ## The host lines after the call -/

/-- What the lines after the call make of the result array: the two rows added, absolute values, the bins added. -/
def tailVal (X : FVec Ideal S2x1152x1 .f32) : FVec Ideal S_ .f32 :=
  Host.reduceAdd (F := Ideal)
    (Host.absf (F := Ideal) (Host.reduceAdd (F := Ideal) X (constant (F := Ideal) S_ .f32 0x00000000#32) reducesTo_S2x1152x1_S1152x1_d0 h_S_))
    (constant (F := Ideal) S_ .f32 0x00000000#32) reducesTo_S1152x1_S_d0_1 h_S_

theorem result_eq (c : Dev nD) :
    Pipeline.afterTail₀ cfgs (dats m) 0 (V0 m) [hostOps1] c main_v5 = tailVal (outArr m c) := by
  unfold Pipeline.afterTail₀
  show StableHlo.after hostOps1 _ (Proc.devRef .tc main_v5) = _
  after_results
  have e : Pipeline.withArrays (cfgs 0).spec c (V0 m c) (fun w => (dats m 0 c).arrAt w (cfgs 0).N)
      (Proc.devRef .tc main_v2) = outArr m c :=
    (Pipeline.withArrays_arr spec0 launch0.win.arr_inj c _ _ 5).trans (final5 m c)
  rw [e]
  rfl

/-! ## The blocks as entries of the arrays -/

open Cert.BinSums in
/-- A point as a tile number. -/
abbrev tileOf (t : Fin cfg0.N) : Fin 16384 := ⟨t.val, lt_of_lt_of_eq t.isLt N_0⟩

/-- A tiled window's block index at point `t`: tile row `t / 32`, tile column `t % 32`. -/
theorem idx0 : ∀ t : Fin cfg0.N, win0_0.index t 0 = t.val / 32 ∧ win0_0.index t 1 = t.val % 32 :=
  (by decide +kernel : ∀ t : Fin grid0.N, win0_0.index t 0 = t.val / 32 ∧ win0_0.index t 1 = t.val % 32)

/-- The other three tiled windows have the same index map. -/
theorem idx1 (t : Fin cfg0.N) : win0_1.index t 0 = t.val / 32 ∧ win0_1.index t 1 = t.val % 32 := idx0 t
theorem idx2 (t : Fin cfg0.N) : win0_2.index t 0 = t.val / 32 ∧ win0_2.index t 1 = t.val % 32 := idx0 t
theorem idx3 (t : Fin cfg0.N) : win0_3.index t 0 = t.val / 32 ∧ win0_3.index t 1 = t.val % 32 := idx0 t

/-- The bins window is the whole column at every point. -/
theorem idx4 (t : Fin cfg0.N) : win0_4.index t 0 = 0 ∧ win0_4.index t 1 = 0 := ⟨rfl, rfl⟩

open Cert.BinSums in
theorem odB_apply (c : Dev nD) (t : Fin cfg0.N) (y : Fin 8) (x : Fin 128) :
    odB m c t (ix2 y x) = V m c main_arg0 (tileIdx (tileOf t) y x) := by
  obtain ⟨h0, h1⟩ := idx0 t
  show V m c main_arg0 (((cfg0.win 0).blk t).view.emb (ix2 y x)) = _
  refine congrArg (V m c main_arg0) (funext fun a => ?_)
  match a with
  | ⟨0, _⟩ =>
    apply Fin.ext
    show win0_0.index t 0 * 8 + 1 * y.val = (t.val / 32) * 8 + y.val
    rw [h0]; omega
  | ⟨1, _⟩ =>
    apply Fin.ext
    show win0_0.index t 1 * 128 + 1 * x.val = (t.val % 32) * 128 + x.val
    rw [h1]; omega

open Cert.BinSums in
theorem omB_apply (c : Dev nD) (t : Fin cfg0.N) (y : Fin 8) (x : Fin 128) :
    omB m c t (ix2 y x) = V m c main_arg1 (tileIdx (tileOf t) y x) := by
  obtain ⟨h0, h1⟩ := idx1 t
  show V m c main_arg1 (((cfg0.win 1).blk t).view.emb (ix2 y x)) = _
  refine congrArg (V m c main_arg1) (funext fun a => ?_)
  match a with
  | ⟨0, _⟩ =>
    apply Fin.ext
    show win0_1.index t 0 * 8 + 1 * y.val = (t.val / 32) * 8 + y.val
    rw [h0]; omega
  | ⟨1, _⟩ =>
    apply Fin.ext
    show win0_1.index t 1 * 128 + 1 * x.val = (t.val % 32) * 128 + x.val
    rw [h1]; omega

open Cert.BinSums in
theorem pdB_apply (c : Dev nD) (t : Fin cfg0.N) (y : Fin 8) (x : Fin 128) :
    pdB m c t (ix2 y x) = V m c main_arg2 (tileIdx (tileOf t) y x) := by
  obtain ⟨h0, h1⟩ := idx2 t
  show V m c main_arg2 (((cfg0.win 2).blk t).view.emb (ix2 y x)) = _
  refine congrArg (V m c main_arg2) (funext fun a => ?_)
  match a with
  | ⟨0, _⟩ =>
    apply Fin.ext
    show win0_2.index t 0 * 8 + 1 * y.val = (t.val / 32) * 8 + y.val
    rw [h0]; omega
  | ⟨1, _⟩ =>
    apply Fin.ext
    show win0_2.index t 1 * 128 + 1 * x.val = (t.val % 32) * 128 + x.val
    rw [h1]; omega

open Cert.BinSums in
theorem nmB_apply (c : Dev nD) (t : Fin cfg0.N) (y : Fin 8) (x : Fin 128) :
    nmB m c t (ix2 y x) = V m c main_arg3 (tileIdx (tileOf t) y x) := by
  obtain ⟨h0, h1⟩ := idx3 t
  show V m c main_arg3 (((cfg0.win 3).blk t).view.emb (ix2 y x)) = _
  refine congrArg (V m c main_arg3) (funext fun a => ?_)
  match a with
  | ⟨0, _⟩ =>
    apply Fin.ext
    show win0_3.index t 0 * 8 + 1 * y.val = (t.val / 32) * 8 + y.val
    rw [h0]; omega
  | ⟨1, _⟩ =>
    apply Fin.ext
    show win0_3.index t 1 * 128 + 1 * x.val = (t.val % 32) * 128 + x.val
    rw [h1]; omega

/-- The column of bin words the host lines before the call build: word `b` at row `b`. -/
theorem bins_eq (c : Dev nD) : (V m c main_v1 : IVec S1152x1 32)
    = shapeCast S1152x1 (iotaInDim S1152 32 0) shapeCasts_S1152_S1152x1 := by
  show StableHlo.after hostOps0 (fun b => m (c, b)) (Proc.devRef .tc main_v1) = _
  after_results
  rfl

theorem binB_apply (c : Dev nD) (t : Fin cfg0.N) (b : Fin 1152) :
    binB m c t (ix2 b (0 : Fin 1)) = BitVec.ofNat 32 b.val := by
  obtain ⟨h0, h1⟩ := idx4 t
  have e : binB m c t (ix2 b (0 : Fin 1)) = V m c main_v1 (ix2 b (0 : Fin 1)) := by
    show V m c main_v1 (((cfg0.win 4).blk t).view.emb (ix2 b (0 : Fin 1))) = _
    refine congrArg (V m c main_v1) (funext fun a => ?_)
    match a with
    | ⟨0, _⟩ =>
      apply Fin.ext
      show win0_4.index t 0 * 1152 + 1 * b.val = b.val
      rw [h0]; omega
    | ⟨1, _⟩ =>
      apply Fin.ext
      show win0_4.index t 1 * 1 + 1 * 0 = 0
      rw [h1]
  rw [e, bins_eq, TileSums.shapeCast_a_a1_apply]
  rfl

/-! ## The result, over the reals -/

open Cert.BinSums in
/-- A tile's masked sum at the ideal values, when the block's words and weights are the array's at the tile's entries
    and the weights are real: the coercion of the real masked sum. -/
theorem masked_eq (c : Dev nD) (t : Fin cfg0.N) (b : Fin 1152) (mskB : IVec S8x128 32) (dB : FVec Ideal S8x128 .f32)
    (msk : Grid2 → BitVec 32) (dr : Grid2 → ℝ)
    (hm : ∀ y x, mskB (ix2 y x) = msk (tileIdx (tileOf t) y x))
    (hd : ∀ y x, dB (ix2 y x) = ((dr (tileIdx (tileOf t) y x) : ℝ) : EReal)) :
    (∑ y : Fin 8, ∑ x : Fin 128,
        (((if binB m c t (ix2 b (0 : Fin 1)) = mskB (ix2 y x) then 1 else 0 : ℝ) : ℝ) : EReal) * dB (ix2 y x))
      = ((tileSumR msk dr (tileOf t) b.val : ℝ) : EReal) := by
  unfold tileSumR
  rw [coe_sum]
  refine Finset.sum_congr rfl fun y _ => ?_
  rw [coe_sum]
  refine Finset.sum_congr rfl fun x _ => ?_
  rw [binB_apply, hm, hd, EReal.coe_mul]
  have e : (if BitVec.ofNat 32 b.val = msk (tileIdx (tileOf t) y x) then (1 : ℝ) else 0)
      = (if msk (tileIdx (tileOf t) y x) = BitVec.ofNat 32 b.val then 1 else 0) := if_congr eq_comm rfl rfl
  rw [e]

open Cert.BinSums in
/-- What point `t` adds to bin `b`, when the densities are real: the coercion of the real difference. -/
theorem tileDiff_eq (c : Dev nD) (odr pdr : Grid2 → ℝ)
    (hod : V m c main_arg0 = fun i => ((odr i : ℝ) : EReal)) (hpd : V m c main_arg2 = fun i => ((pdr i : ℝ) : EReal))
    (t : Fin cfg0.N) (b : Fin 1152) :
    tileDiff m c t b
      = ((tileSumR (V m c main_arg3) pdr (tileOf t) b.val - tileSumR (V m c main_arg1) odr (tileOf t) b.val : ℝ) : EReal) := by
  unfold tileDiff
  rw [TileSums.pay5_apply, TileSums.pay4_apply,
    masked_eq m c t b (nmB m c t) (pdB m c t) (V m c main_arg3) pdr (fun y x => nmB_apply m c t y x)
      (fun y x => by rw [pdB_apply, hpd]),
    masked_eq m c t b (omB m c t) (odB m c t) (V m c main_arg1) odr (fun y x => omB_apply m c t y x)
      (fun y x => by rw [odB_apply, hod]),
    ← EReal.coe_sub]

open Cert.BinSums in
theorem tileDiffN_eq (c : Dev nD) (odr pdr : Grid2 → ℝ)
    (hod : V m c main_arg0 = fun i => ((odr i : ℝ) : EReal)) (hpd : V m c main_arg2 = fun i => ((pdr i : ℝ) : EReal))
    (s : ℕ) (b : Fin 1152) :
    tileDiffN m c s b = ((tileDiffR (V m c main_arg1) (V m c main_arg3) odr pdr s b.val : ℝ) : EReal) := by
  have hN : cfg0.N = 16384 := N_0
  unfold tileDiffN tileDiffR
  by_cases h : s < 16384
  · rw [dif_pos (show s < cfg0.N by rw [hN]; exact h), dif_pos h, tileDiff_eq m c odr pdr hod hpd]
  · rw [dif_neg (show ¬s < cfg0.N by rw [hN]; exact h), dif_neg h, EReal.coe_zero]

open Cert.BinSums in
/-- The two rows of the result array added, at bin `b`: every tile's difference. -/
theorem rows_eq (c : Dev nD) (odr pdr : Grid2 → ℝ)
    (hod : V m c main_arg0 = fun i => ((odr i : ℝ) : EReal)) (hpd : V m c main_arg2 = fun i => ((pdr i : ℝ) : EReal))
    (b : Fin 1152) :
    Host.reduceAdd (F := Ideal) (outArr m c) (constant (F := Ideal) S_ .f32 0x00000000#32)
        reducesTo_S2x1152x1_S1152x1_d0 h_S_ (ix2 b (0 : Fin 1))
      = ((∑ s ∈ Finset.range 16384, tileDiffR (V m c main_arg1) (V m c main_arg3) odr pdr s b.val : ℝ) : EReal) := by
  have hR : S2x1152x1.Reduces [0] S1152x1 := by decide
  refine (hostReduceAdd_apply _ _ _ _ _).trans ?_
  refine (Ideal.hostReduceAdd_single reducesTo_S2x1152x1_S1152x1_d0 hR _ _ _).trans ?_
  have hl : ∀ k : Fin 2, outArr m c (hR.lift (ix2 b (0 : Fin 1)) k) = halfSum m c k.val b := by
    intro k
    have e : hR.lift (ix2 b (0 : Fin 1)) k = ix3 k b (0 : Fin 1) := by
      funext a
      match a with
      | ⟨0, _⟩ => rfl
      | ⟨1, _⟩ => rfl
      | ⟨2, _⟩ => rfl
    rw [e]
    show halfSumN m c k.val b.val = _
    exact halfSumN_eq m c k.val b
  show Ideal.ofBits .f32 0x00000000#32 + ∑ k : Fin 2, outArr m c (hR.lift (ix2 b (0 : Fin 1)) k) = _
  simp only [hl]
  rw [Fin.sum_univ_two, Ideal.ofBits_zero_f32, zero_add]
  show halfSum m c 0 b + halfSum m c 1 b = _
  unfold halfSum
  rw [sum_halves (fun s => tileDiffN m c s b), coe_sum]
  exact Finset.sum_congr rfl fun s _ => tileDiffN_eq m c odr pdr hod hpd s b

open Cert.BinSums in
/-- The kernel's result when the densities are real and the mask words are below 1025: the loss. -/
theorem kernel_value (c : Dev nD) (odr pdr : Grid2 → ℝ)
    (hod : V m c main_arg0 = fun i => ((odr i : ℝ) : EReal)) (hpd : V m c main_arg2 = fun i => ((pdr i : ℝ) : EReal))
    (hom : ∀ i, ((V m c main_arg1 : Grid2 → BitVec 32) i).toInt < 1025)
    (hnm : ∀ i, ((V m c main_arg3 : Grid2 → BitVec 32) i).toInt < 1025) :
    tailVal (outArr m c) = fun _ => ((loss (V m c main_arg1) (V m c main_arg3) odr pdr : ℝ) : EReal) := by
  funext i0
  unfold tailVal
  refine (hostReduceAdd_apply _ _ _ _ _).trans ?_
  refine (Ideal.hostReduceAdd_total reducesTo_S1152x1_S_d0_1 (fun b => b.elim0) _ _ _).trans ?_
  show Ideal.ofBits .f32 0x00000000#32 + ∑ j : S1152x1.Idx, Host.absf (F := Ideal) (Host.reduceAdd (F := Ideal) (outArr m c)
    (constant (F := Ideal) S_ .f32 0x00000000#32) reducesTo_S2x1152x1_S1152x1_d0 h_S_) j = _
  rw [Ideal.ofBits_zero_f32, zero_add, sum_idx2, ← tiled_range_eq_loss _ _ odr pdr hom hnm, coe_sum]
  refine Finset.sum_congr rfl fun b _ => ?_
  rw [Fin.sum_univ_one]
  show max (Host.reduceAdd (F := Ideal) (outArr m c) (constant (F := Ideal) S_ .f32 0x00000000#32)
      reducesTo_S2x1152x1_S1152x1_d0 h_S_ (ix2 b (0 : Fin 1)))
    (-(Host.reduceAdd (F := Ideal) (outArr m c) (constant (F := Ideal) S_ .f32 0x00000000#32)
      reducesTo_S2x1152x1_S1152x1_d0 h_S_ (ix2 b (0 : Fin 1)))) = _
  rw [rows_eq m c odr pdr hod hpd b, max_neg_coe]

/-! ## The run, read -/

/-- Every weakly fair execution of the kernel program ends with its result at the tail's value of the halves' sums, and
    its four arguments unchanged. -/
theorem run : θ_run defs (onTc (τ := τ) (main (F := Ideal))) ⟨m, fun _ => 0, ρ⟩ fun r => ∀ c : Dev nD,
      r.2.mem ((c.tc : Thread nD τ).loc main_v5) = tailVal (outArr m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
    ⟨((h c).2 main_v5 (Pipeline.mem_restRefs_of main_v5 rfl (by decide))).trans (result_eq m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c)))⟩)
    (run_main m ρ)

end Cert.KernelIdeal.HistValue

end
-- ==== Proof.SegmentRead.lean ====
/-
  Reading a segment sum. A scatter of `n` updates into an array of `N` bins, one index word per update (the index
  array is `n × 1`, its second axis the index vector's), no window: update `j` lands on bin `i` exactly when its word,
  read as a signed integer, is `i`; a word outside `[0, N)` lands nowhere. So the accumulating scatter, at the ideal
  values, is the operand plus the sum of the updates whose word is the bin's number.
-/
import Idealize.ShloMosaic.PureOps.Ideal
import Idealize.ShloMosaic.Lib.ValueIdx
import Idealize.ShloMosaic.Lib.ValueIdxRank1

open scoped BigOperators
open Idealize.ShloMosaic Idealize.ShloMosaic.ValueIdx

namespace Cert.SegmentRead

variable {N n : ℕ}

/-- The dimension numbers of such a scatter. -/
abbrev segDims (wf : ScatterDims.WF (⟨1, ![N]⟩ : Shape) ⟨2, ![n, 1]⟩ ⟨1, ![n]⟩ [] [0] [0] 1) :
    ScatterDims (⟨1, ![N]⟩ : Shape) ⟨2, ![n, 1]⟩ ⟨1, ![n]⟩ := ⟨[], [0], [0], 1, wf⟩

/-- The place in the index array update `j` reads its word from: row `j`, the one column. -/
theorem siIdx_eq (wf : ScatterDims.WF (⟨1, ![N]⟩ : Shape) ⟨2, ![n, 1]⟩ ⟨1, ![n]⟩ [] [0] [0] 1)
    (j : (⟨1, ![n]⟩ : Shape).Idx) (c : Fin (segDims wf).scatterDimsToOperandDims.length) :
    (segDims wf).siIdx j c = ix2 (j 0) 0 := by
  funext b
  match b with
  | ⟨0, hb⟩ =>
    apply Fin.ext
    unfold ScatterDims.siIdx
    rw [dif_neg (show ¬((⟨0, hb⟩ : Fin (⟨2, ![n, 1]⟩ : Shape).rank).val = (segDims wf).indexVectorDim) from Nat.zero_ne_one)]
    unfold ScatterDims.siCoord
    show (j _).val = (j 0).val
    congr 2
  | ⟨1, hb⟩ =>
    apply Fin.ext
    unfold ScatterDims.siIdx
    rw [dif_pos rfl]
    show c.val = 0
    have := c.isLt
    simp only [List.length_singleton] at this
    omega

theorem start_eq (wf : ScatterDims.WF (⟨1, ![N]⟩ : Shape) ⟨2, ![n, 1]⟩ ⟨1, ![n]⟩ [] [0] [0] 1)
    (j : (⟨1, ![n]⟩ : Shape).Idx) (idx : IVec ⟨2, ![n, 1]⟩ 32) (a : Fin (⟨1, ![N]⟩ : Shape).rank) :
    (segDims wf).start j idx a = (idx (ix2 (j 0) 0)).toInt := by
  have ha : a = 0 := Fin.ext (by have : a.val < 1 := a.isLt; show a.val = 0; omega)
  subst ha
  unfold ScatterDims.start
  rw [dif_pos (List.mem_singleton.mpr rfl), siIdx_eq]
  rfl

theorem window_eq (wf : ScatterDims.WF (⟨1, ![N]⟩ : Shape) ⟨2, ![n, 1]⟩ ⟨1, ![n]⟩ [] [0] [0] 1)
    (j : (⟨1, ![n]⟩ : Shape).Idx) (a : Fin (⟨1, ![N]⟩ : Shape).rank) :
    (segDims wf).window j a = 0 := by
  have ha : a = 0 := Fin.ext (by have : a.val < 1 := a.isLt; show a.val = 0; omega)
  subst ha
  unfold ScatterDims.window
  rw [dif_neg (by simp [ScatterDims.sKept, Shape.kept])]

/-- Update `j` lands on bin `i` exactly when its word read signed is `i`'s number. -/
theorem resultIdx?_eq_some_iff (wf : ScatterDims.WF (⟨1, ![N]⟩ : Shape) ⟨2, ![n, 1]⟩ ⟨1, ![n]⟩ [] [0] [0] 1)
    (j : (⟨1, ![n]⟩ : Shape).Idx) (idx : IVec ⟨2, ![n, 1]⟩ 32) (i : (⟨1, ![N]⟩ : Shape).Idx) :
    (segDims wf).resultIdx? j idx = some i ↔ (idx (ix2 (j 0) 0)).toInt = ((i 0).val : ℤ) := by
  unfold ScatterDims.resultIdx?
  simp only [start_eq, window_eq, Nat.cast_zero, add_zero]
  have hi : (i 0).val < N := (i 0).isLt
  constructor
  · intro h
    split at h
    · rename_i hc
      have h' := congrFun (Option.some.inj h) 0
      have h'' := congrArg Fin.val h'
      simp only at h''
      have := hc 0
      omega
    · exact absurd h (by simp)
  · intro h
    have hc : ∀ a : Fin (⟨1, ![N]⟩ : Shape).rank, 0 ≤ (idx (ix2 (j 0) 0)).toInt ∧ (idx (ix2 (j 0) 0)).toInt < ((⟨1, ![N]⟩ : Shape).size a : ℤ) := by
      intro a
      have ha : a = 0 := Fin.ext (by have : a.val < 1 := a.isLt; show a.val = 0; omega)
      subst ha
      rw [h]
      have hs : (⟨1, ![N]⟩ : Shape).size 0 = N := rfl
      rw [hs]
      exact ⟨by omega, by exact_mod_cast hi⟩
    rw [dif_pos hc]
    congr 1
    funext a
    have ha : a = 0 := Fin.ext (by have : a.val < 1 := a.isLt; show a.val = 0; omega)
    subst ha
    apply Fin.ext
    show (idx (ix2 (j 0) 0)).toInt.toNat = (i 0).val
    omega

/-- The accumulating scatter at the ideal values, at bin `i`: the operand there plus the updates whose word is `i`. -/
theorem hostScatterAdd_apply (wf : ScatterDims.WF (⟨1, ![N]⟩ : Shape) ⟨2, ![n, 1]⟩ ⟨1, ![n]⟩ [] [0] [0] 1)
    (x : (⟨1, ![N]⟩ : Shape).Idx → EReal) (idx : IVec ⟨2, ![n, 1]⟩ 32) (upd : (⟨1, ![n]⟩ : Shape).Idx → EReal)
    (i : (⟨1, ![N]⟩ : Shape).Idx) :
    Ideal.hostScatterAdd (segDims wf) x idx upd i
      = x i + ∑ j : (⟨1, ![n]⟩ : Shape).Idx, if (idx (ix2 (j 0) 0)).toInt = ((i 0).val : ℤ) then upd j else 0 := by
  unfold Ideal.hostScatterAdd
  rw [Finset.sum_filter]
  congr 1
  refine Finset.sum_congr rfl fun j _ => ?_
  simp only [resultIdx?_eq_some_iff]

/-- The same with the updates numbered by their position `k` in the row. -/
theorem hostScatterAdd_apply_fin (wf : ScatterDims.WF (⟨1, ![N]⟩ : Shape) ⟨2, ![n, 1]⟩ ⟨1, ![n]⟩ [] [0] [0] 1)
    (x : (⟨1, ![N]⟩ : Shape).Idx → EReal) (idx : IVec ⟨2, ![n, 1]⟩ 32) (upd : (⟨1, ![n]⟩ : Shape).Idx → EReal)
    (i : (⟨1, ![N]⟩ : Shape).Idx) :
    Ideal.hostScatterAdd (segDims wf) x idx upd i
      = x i + ∑ k : Fin n, if (idx (ix2 k 0)).toInt = ((i 0).val : ℤ) then upd (ix1 k) else 0 := by
  rw [hostScatterAdd_apply]
  congr 1
  refine Fintype.sum_equiv idxEquiv1 _ _ fun j => ?_
  show (if (idx (ix2 (j 0) 0)).toInt = ((i 0).val : ℤ) then upd j else 0)
    = (if (idx (ix2 (j 0) 0)).toInt = ((i 0).val : ℤ) then upd (ix1 (j 0)) else 0)
  exact congrArg (fun u => if (idx (ix2 (j 0) 0)).toInt = ((i 0).val : ℤ) then upd u else 0) (eq_ix1 j)

/-- The host's accumulating scatter, read at the ideal values, is the exact sum `Ideal.hostScatterAdd`: stated once over
    arbitrary shapes, so that a program's scatter at its own literal shapes is opened by rewriting. -/
theorem scatterAdd_eq {s si u : Shape} {w : Nat} {φ : FTy} (d : ScatterDims s si u) (x : FVec Ideal s φ) (idx : IVec si w)
    (upd : FVec Ideal u φ) : Host.scatterAdd (F := Ideal) d x idx upd = Ideal.hostScatterAdd d x idx upd := rfl

end Cert.SegmentRead
-- ==== Proof.RefValue.lean ====
/-
  The reference's result. Its two scatters are segment sums: at bin `b` (0 … 1024) each is the total weight of the
  entries whose mask word is `b` — a word outside the bins lands nowhere. On densities that are real numbers the
  result is therefore the loss: the absolute differences of the two histograms, summed over the 1025 bins. No bound on
  the mask words is used here.
-/
import proofs.«400608_j11398843203872_1_alg».proof.Proof.Gen.ReferenceIdeal.Run
import proofs.«400608_j11398843203872_1_alg».proof.Proof.Gen.ReferenceIdeal.Read
import proofs.«400608_j11398843203872_1_alg».proof.Proof.SegmentRead
import proofs.«400608_j11398843203872_1_alg».proof.Proof.BinSums
import Idealize.ShloMosaic.Lib.ValueIdxRank1

noncomputable section

open scoped BigOperators
open Idealize.ShloMosaic Idealize.ShloMosaic.ValueIdx

namespace Cert.RefValue

open Cert.ReferenceIdeal Cert.ReferenceIdeal.Gen Cert.ReferenceIdeal.Read Cert.BinSums

/-- Position `k` of the flattened array is entry `flatIdx k` of the array: the reshape's index, named. -/
theorem idx_flat (k : Fin 16777216) : idx_main_v0 (ix1 k) = flatIdx k := by
  funext a
  match a with
  | ⟨0, _⟩ =>
    apply Fin.ext
    show k.val / 4096 = k.val / 4096
    rfl
  | ⟨1, _⟩ =>
    apply Fin.ext
    show k.val % 4096 = k.val % 4096
    rfl

/-- The same for the mask, whose flattened copy is also laid out as a column before it is read. -/
theorem idx_flat_col (k : Fin 16777216) : idx_main_v1 (idx_main_v3 (ix2 k (0 : Fin 1))) = flatIdx k := by
  funext a
  match a with
  | ⟨0, _⟩ =>
    apply Fin.ext
    show k.val / 4096 = k.val / 4096
    rfl
  | ⟨1, _⟩ =>
    apply Fin.ext
    show k.val % 4096 = k.val % 4096
    rfl

/-- The reference's scatter has the dimension numbers of a segment sum. -/
theorem dims_eq : scatter_S1025_S16777216x1_S16777216_n_0_0_1
    = SegmentRead.segDims scatter_S1025_S16777216x1_S16777216_n_0_0_1_wf := rfl

/-- One scatter of the reference: real weights `d` reshaped to a row, added into 1025 zero bins at the words of the
    mask reshaped to a column. At bin `j` it is that bin's count. -/
theorem segment_eq (msk : IVec S4096x4096 32) (d : Grid2 → ℝ) (j : S1025.Idx) :
    Host.scatterAdd (F := Ideal) scatter_S1025_S16777216x1_S16777216_n_0_0_1
        (broadcastInDim S1025 ![] bcast_S_S1025 (constant S_ .f32 0x00000000#32))
        (broadcastInDim S16777216x1 ![0] bcast_S16777216_S16777216x1_0 (shapeCast _ msk shapeCasts_S4096x4096_S16777216))
        (shapeCast _ (fun i => ((d i : ℝ) : EReal)) shapeCasts_S4096x4096_S16777216) j
      = ((binSum msk d (BitVec.ofNat 32 (j 0).val) : ℝ) : EReal) := by
  have hj : (j 0).val < 1025 := (j 0).isLt
  rw [SegmentRead.scatterAdd_eq, dims_eq, SegmentRead.hostScatterAdd_apply_fin,
    coe_binSum_flat msk d (j 0).val (by omega)]
  have hz : broadcastInDim S1025 ![] bcast_S_S1025 (constant (F := Ideal) S_ .f32 0x00000000#32) j = 0 := by
    show val_main_v2 (F := Ideal) j = 0
    rw [val_main_v2_apply, val_main_cst_apply]
    exact Ideal.ofBits_zero_f32
  rw [hz, zero_add]
  refine Finset.sum_congr rfl fun k _ => ?_
  show (if ((val_main_v3 (F := Ideal) msk) (ix2 k 0)).toInt = ((j 0).val : ℤ)
      then val_main_v0 (F := Ideal) (fun i => ((d i : ℝ) : EReal)) (ix1 k) else 0)
    = (if (msk (flatIdx k)).toInt = ((j 0).val : ℤ) then ((d (flatIdx k) : ℝ) : EReal) else 0)
  rw [val_main_v3_apply, val_main_v1_apply, val_main_v0_apply, idx_flat, idx_flat_col]

/-- The reference's result on real densities: the loss. -/
theorem ref_value (om nm : IVec S4096x4096 32) (od pd : Grid2 → ℝ) :
    val_main_v12 (F := Ideal) (fun i => ((od i : ℝ) : EReal)) om (fun i => ((pd i : ℝ) : EReal)) nm
      = fun _ => ((loss om nm od pd : ℝ) : EReal) := by
  funext i
  rw [val_main_v12_apply, val_main_cst_1_apply]
  have hterm : ∀ j : S1025.Idx, val_main_v11 (F := Ideal) (fun i => ((od i : ℝ) : EReal)) om (fun i => ((pd i : ℝ) : EReal)) nm j
      = ((|binSum nm pd (BitVec.ofNat 32 (j 0).val) - binSum om od (BitVec.ofNat 32 (j 0).val)| : ℝ) : EReal) := by
    intro j
    rw [val_main_v11_apply, val_main_v10_apply]
    unfold val_main_v9 val_main_v4 val_main_v7 val_main_v2 val_main_v8 val_main_v3 val_main_v5 val_main_v0
      val_main_v6 val_main_v1 val_main_cst val_main_cst_0
    rw [segment_eq, segment_eq]
    show max (((_ : ℝ) : EReal) - ((_ : ℝ) : EReal)) (-(((_ : ℝ) : EReal) - ((_ : ℝ) : EReal))) = _
    rw [← EReal.coe_sub, max_neg_coe]
  simp only [hterm]
  unfold loss
  rw [coe_sum]
  show Ideal.ofBits .f32 0x00000000#32 + _ = _
  rw [Ideal.ofBits_zero_f32, zero_add]
  exact Fintype.sum_equiv idxEquiv1 _ _ fun j => rfl

end Cert.RefValue

end
-- ==== Proof.lean ====
/-
  The certificate: a masked, weighted histogram difference.

  Both programs take two density arrays and two mask arrays of 4096 × 4096 entries and return one number: over the bins
  0 … 1024, the absolute difference between the total new density and the total original density of the entries whose
  mask word is the bin's, summed. The reference computes the two histograms by segment sums. The kernel walks the arrays
  in 8 × 128 tiles, compares each tile's mask words with a column of 1152 bin words, accumulates per bin the difference of
  the two masked tile sums in two halves of the grid, and lets the host add the halves, take absolute values and add the
  1152 bins.

  Under the precondition the densities are real numbers and every mask word is below 1025, so the kernel's 127 extra
  bins stay empty and the differences may be regrouped freely: both results are the same real number (`BinSums.loss`).
  The frames of the two kernel programs are the generated ones; the reference's frame is its generated run with the
  result dropped; the ideal pass rewrote nothing, so the idealization claim is trivial.
-/
import proofs.«400608_j11398843203872_1_alg».proof.Defs
import proofs.«400608_j11398843203872_1_alg».proof.Proof.Gen.Kernel
import proofs.«400608_j11398843203872_1_alg».proof.Proof.Gen.Kernel.Frame
import proofs.«400608_j11398843203872_1_alg».proof.Proof.Gen.KernelIdeal
import proofs.«400608_j11398843203872_1_alg».proof.Proof.Gen.KernelIdeal.Frame
import proofs.«400608_j11398843203872_1_alg».proof.Proof.Gen.ReferenceIdeal
import proofs.«400608_j11398843203872_1_alg».proof.Proof.Gen.ReferenceIdeal.Run
import proofs.«400608_j11398843203872_1_alg».proof.Proof.Gen.ReferenceIdeal.Read
import proofs.«400608_j11398843203872_1_alg».proof.Proof.Gen.Pre_finite_inputs
import proofs.«400608_j11398843203872_1_alg».proof.Proof.PreDecode
import proofs.«400608_j11398843203872_1_alg».proof.Proof.KernelValue
import proofs.«400608_j11398843203872_1_alg».proof.Proof.RefValue
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

/-- An entry the precondition makes a real number is the coercion of its real part. -/
theorem coe_toReal_of {x : EReal} (h : ∃ r : ℝ, x = (r : EReal)) : x = ((x.toReal : ℝ) : EReal) := by
  obtain ⟨r, rfl⟩ := h
  rw [EReal.toReal_coe]

/-- From memories that agree on the arguments both programs end at the loss of the masks and the densities' real parts. -/
theorem algebraic : Cert.algebraic_KernelIdeal_ReferenceIdeal := by
  intro m ρ m' ρ' hpre hagree
  refine ⟨fun c => fun _ =>
    ((Cert.BinSums.loss (m ((c.tc : Thread Cert.KernelIdeal.nD Cert.KernelIdeal.τ).loc Cert.KernelIdeal.main_arg1))
      (m ((c.tc : Thread Cert.KernelIdeal.nD Cert.KernelIdeal.τ).loc Cert.KernelIdeal.main_arg3))
      (fun i => (m ((c.tc : Thread Cert.KernelIdeal.nD Cert.KernelIdeal.τ).loc Cert.KernelIdeal.main_arg0) i).toReal)
      (fun i => (m ((c.tc : Thread Cert.KernelIdeal.nD Cert.KernelIdeal.τ).loc Cert.KernelIdeal.main_arg2) i).toReal) : ℝ) : EReal),
    ?_, ?_⟩
  · refine (θ_run Cert.KernelIdeal.defs _ _).mono (fun r h c => ⟨?_, (h c).2⟩) (Cert.KernelIdeal.HistValue.run m ρ)
    obtain ⟨hod, hom, hpd, hnm⟩ := Cert.PreDecode.decode _ _ _ _ (hpre c)
    rw [(h c).1]
    have e := Cert.KernelIdeal.HistValue.kernel_value m c
      (fun i => (m ((c.tc : Thread Cert.KernelIdeal.nD Cert.KernelIdeal.τ).loc Cert.KernelIdeal.main_arg0) i).toReal)
      (fun i => (m ((c.tc : Thread Cert.KernelIdeal.nD Cert.KernelIdeal.τ).loc Cert.KernelIdeal.main_arg2) i).toReal)
      ((Cert.KernelIdeal.Gen.V_main_arg0 m c).trans (funext fun i => coe_toReal_of (hod i)))
      ((Cert.KernelIdeal.Gen.V_main_arg2 m c).trans (funext fun i => coe_toReal_of (hpd i)))
      (fun i => by rw [Cert.KernelIdeal.Gen.V_main_arg1 m c]; exact hom i)
      (fun i => by rw [Cert.KernelIdeal.Gen.V_main_arg3 m c]; exact hnm i)
    rw [e, Cert.KernelIdeal.Gen.V_main_arg1 m c, Cert.KernelIdeal.Gen.V_main_arg3 m c]
    rfl
  · refine (θ_run Cert.ReferenceIdeal.defs _ _).mono (fun r h c => ⟨?_, (h c).2⟩)
      (Cert.ReferenceIdeal.Value.run (F := Ideal) m' ρ')
    obtain ⟨hod, hom, hpd, hnm⟩ := Cert.PreDecode.decode _ _ _ _ (hpre c)
    rw [(h c).1, Cert.ReferenceIdeal.Read.val_main_v12_eq, (hagree c).1, (hagree c).2.1, (hagree c).2.2.1, (hagree c).2.2.2]
    have e0 : m ((c.tc : Thread Cert.KernelIdeal.nD Cert.KernelIdeal.τ).loc Cert.KernelIdeal.main_arg0)
        = fun i => (((m ((c.tc : Thread Cert.KernelIdeal.nD Cert.KernelIdeal.τ).loc Cert.KernelIdeal.main_arg0) i).toReal : ℝ) : EReal) :=
      funext fun i => coe_toReal_of (hod i)
    have e2 : m ((c.tc : Thread Cert.KernelIdeal.nD Cert.KernelIdeal.τ).loc Cert.KernelIdeal.main_arg2)
        = fun i => (((m ((c.tc : Thread Cert.KernelIdeal.nD Cert.KernelIdeal.τ).loc Cert.KernelIdeal.main_arg2) i).toReal : ℝ) : EReal) :=
      funext fun i => coe_toReal_of (hpd i)
    have key := Cert.RefValue.ref_value
      (m ((c.tc : Thread Cert.KernelIdeal.nD Cert.KernelIdeal.τ).loc Cert.KernelIdeal.main_arg1))
      (m ((c.tc : Thread Cert.KernelIdeal.nD Cert.KernelIdeal.τ).loc Cert.KernelIdeal.main_arg3))
      (fun i => (m ((c.tc : Thread Cert.KernelIdeal.nD Cert.KernelIdeal.τ).loc Cert.KernelIdeal.main_arg0) i).toReal)
      (fun i => (m ((c.tc : Thread Cert.KernelIdeal.nD Cert.KernelIdeal.τ).loc Cert.KernelIdeal.main_arg2) i).toReal)
    refine Eq.trans ?_ key
    exact congrArg₂ (fun a b => Cert.ReferenceIdeal.Read.val_main_v12 (F := Ideal) a
      (m ((c.tc : Thread Cert.KernelIdeal.nD Cert.KernelIdeal.τ).loc Cert.KernelIdeal.main_arg1)) b
      (m ((c.tc : Thread Cert.KernelIdeal.nD Cert.KernelIdeal.τ).loc Cert.KernelIdeal.main_arg3))) e0 e2

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
